-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x100 : Shape := ⟨2, ![500000, 100]⟩
abbrev S500000 : Shape := ⟨1, ![500000]⟩
abbrev S_ : Shape := ⟨0, ![]⟩

class Facts : Prop where
  bcast_S_S500000x100 : S_.BroadcastsInDim S500000x100 (![] : Fin 0 → Fin S500000x100.rank)
  reducesTo_S500000x100_S_d0_1 : S500000x100.ReducesTo [0, 1] S_
  h_S_ : 0 < S_.numel
  bcast_S_S500000 : S_.BroadcastsInDim S500000 (![] : Fin 0 → Fin S500000.rank)
  reducesTo_S500000_S_d0 : S500000.ReducesTo [0] S_

variable [Facts]

def fn {F : FTy → Type} [FloatOps F] (main_arg0 : FVec F S500000x100 .f32) (main_arg1 : IVec S500000 32) : IVec S_ 1 :=
  let main_v0 : FVec F S500000x100 .f32 := Host.absf main_arg0
  let main_cst : FVec F S_ .f32 := constant S_ .f32 0x7F800000#32
  let main_v1 : FVec F S500000x100 .f32 := broadcastInDim S500000x100 ![] bcast_S_S500000x100 main_cst
  let main_v2 : IVec S500000x100 1 := cmpf .olt main_v0 main_v1
  let main_c : IVec S_ 1 := constantI S_ 1 1#1
  let main_v3 : IVec S_ 1 := (fun x v => Host.reduce IntOp.andi x v reducesTo_S500000x100_S_d0_1 h_S_) main_v2 main_c
  let main_c_0 : IVec S_ 32 := constantI S_ 32 0#32
  let main_v4 : IVec S500000 32 := broadcastInDim S500000 ![] bcast_S_S500000 main_c_0
  let main_v5 : IVec S500000 1 := cmpi .sge main_arg1 main_v4
  let main_c_1 : IVec S_ 32 := constantI S_ 32 100#32
  let main_v6 : IVec S500000 32 := broadcastInDim S500000 ![] bcast_S_S500000 main_c_1
  let main_v7 : IVec S500000 1 := cmpi .slt main_arg1 main_v6
  let main_v8 : IVec S500000 1 := andi main_v5 main_v7
  let main_c_2 : IVec S_ 1 := constantI S_ 1 1#1
  let main_v9 : IVec S_ 1 := (fun x v => Host.reduce IntOp.andi x v reducesTo_S500000_S_d0 h_S_) main_v8 main_c_2
  let main_v10 : IVec S_ 1 := andi main_v3 main_v9
  main_v10
-- ==== Kernel.lean ====
abbrev S500000x100 : Shape := ⟨2, ![500000, 100]⟩
abbrev S500000 : Shape := ⟨1, ![500000]⟩
abbrev S_ : Shape := ⟨0, ![]⟩
abbrev S500000x1 : Shape := ⟨2, ![500000, 1]⟩
abbrev S200x128 : Shape := ⟨2, ![200, 128]⟩
abbrev S20000x100 : Shape := ⟨2, ![20000, 100]⟩
abbrev S20000x1 : Shape := ⟨2, ![20000, 1]⟩
abbrev S8x128 : Shape := ⟨2, ![8, 128]⟩
abbrev S20000 : Shape := ⟨1, ![20000]⟩
abbrev S1x20000x100 : Shape := ⟨3, ![1, 20000, 100]⟩
abbrev S1 : Shape := ⟨1, ![1]⟩
abbrev S1x1x1 : Shape := ⟨3, ![1, 1, 1]⟩

abbrev nBuf : Space → Nat
  | .hbm => 16
  | .vmem => 6
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S500000, .i32⟩
  | .hbm, ⟨6, _⟩ => ⟨S500000, .i32⟩
  | .hbm, ⟨7, _⟩ => ⟨S_, .i32⟩
  | .hbm, ⟨8, _⟩ => ⟨S500000, .i32⟩
  | .hbm, ⟨9, _⟩ => ⟨S500000, .i32⟩
  | .hbm, ⟨10, _⟩ => ⟨S500000x1, .i32⟩
  | .hbm, ⟨11, _⟩ => ⟨S200x128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .local _ .vmem, ⟨0, _⟩ => ⟨S20000x100, .f32⟩
  | .local _ .vmem, ⟨1, _⟩ => ⟨S20000x100, .f32⟩
  | .local _ .vmem, ⟨2, _⟩ => ⟨S20000x1, .i32⟩
  | .local _ .vmem, ⟨3, _⟩ => ⟨S20000x1, .i32⟩
  | .local _ .vmem, ⟨4, _⟩ => ⟨S8x128, .f32⟩
  | .local _ .vmem, ⟨5, _⟩ => ⟨S8x128, .f32⟩
  | _, _ => ⟨S500000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S20000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S500000 : S_.BroadcastsInDim S500000 (![] : Fin 0 → Fin S500000.rank)
  shapeCasts_S500000_S500000x1 : S500000.ShapeCasts S500000x1
  inb_S20000x100_S20000x100_0_0 : ∀ a, (![0, 0] : Fin 2 → Nat) a + S20000x100.size a ≤ S20000x100.size a
  h_S20000x100 : 0 < S20000x100.numel
  inb_S20000x1_S20000x1_0_0 : ∀ a, (![0, 0] : Fin 2 → Nat) a + S20000x1.size a ≤ S20000x1.size a
  h_S20000x1 : 0 < S20000x1.numel
  shapeCasts_S20000x1_S20000x1 : S20000x1.ShapeCasts S20000x1
  iota_S20000x100_d1_w32 : S20000x100.Iotas .tc 32 [1]
  broadcasts_S20000x1_S20000x100 : S20000x1.Broadcasts S20000x100
  reduces_S20000x100_S20000 : S20000x100.Reduces [1] S20000
  shapeCasts_S20000_S20000x1 : S20000.ShapeCasts S20000x1
  shapeCasts_S20000x100_S1x20000x100 : S20000x100.ShapeCasts S1x20000x100
  reduces_S1x20000x100_S1 : S1x20000x100.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S8x128_S8x128_0_0 : ∀ a, (![0, 0] : Fin 2 → Nat) a + S8x128.size a ≤ S8x128.size a
  h_S8x128 : 0 < S8x128.numel
  reducesTo_S200x128_S_d0_1 : S200x128.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x100.size a ≤ S500000x100.size a
  hwx0_0 : ∀ i : grid0.Coords, EltTy.bits .f32 = 32 ∨ (Rect.block (s := S500000x100) S20000x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S20000x1.size a ≤ S500000x1.size a
  hwx0_1 : ∀ i : grid0.Coords, EltTy.bits .i32 = 32 ∨ (Rect.block (s := S500000x1) S20000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S200x128.size a
  hwx0_2 : ∀ i : grid0.Coords, EltTy.bits .f32 = 32 ∨ (Rect.block (s := S200x128) S8x128.size (cc0_transform_2 i) (hinb0_2 i)).WholeWords (EltTy.packing .f32)

variable [Facts₀]

abbrev win0_0 : Pipeline.Window sig grid0 :=
  Pipeline.Window.ofSpec (Memref.whole main_arg0) S20000x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S20000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x100 : Shape := ⟨2, ![500000, 100]⟩
abbrev S500000 : Shape := ⟨1, ![500000]⟩
abbrev S500000x1 : Shape := ⟨2, ![500000, 1]⟩
abbrev S_ : Shape := ⟨0, ![]⟩
abbrev S500000x1x1 : Shape := ⟨3, ![500000, 1, 1]⟩
abbrev S1 : Shape := ⟨1, ![1]⟩
abbrev S1x1x1 : Shape := ⟨3, ![1, 1, 1]⟩
abbrev S1x100 : Shape := ⟨2, ![1, 100]⟩

abbrev nBuf : Space → Nat
  | .hbm => 47
  | .vmem => 0
  | .smem => 0
  | _ => 0

abbrev bufTy : (tb : Table) → Fin (tcTables nBuf tb) → BufTy
  | .hbm, ⟨0, _⟩ => ⟨S500000x100, .f32⟩
  | .hbm, ⟨1, _⟩ => ⟨S500000, .i32⟩
  | .hbm, ⟨2, _⟩ => ⟨S500000x1, .i32⟩
  | .hbm, ⟨3, _⟩ => ⟨S_, .i32⟩
  | .hbm, ⟨4, _⟩ => ⟨S500000x1, .i32⟩
  | .hbm, ⟨5, _⟩ => ⟨S500000x1, .i1⟩
  | .hbm, ⟨6, _⟩ => ⟨S_, .i32⟩
  | .hbm, ⟨7, _⟩ => ⟨S500000x1, .i32⟩
  | .hbm, ⟨8, _⟩ => ⟨S500000x1, .i32⟩
  | .hbm, ⟨9, _⟩ => ⟨S500000x1, .i32⟩
  | .hbm, ⟨10, _⟩ => ⟨S500000x1x1, .i32⟩
  | .hbm, ⟨11, _⟩ => ⟨S1, .i32⟩
  | .hbm, ⟨12, _⟩ => ⟨S_, .i32⟩
  | .hbm, ⟨13, _⟩ => ⟨S500000x1x1, .i32⟩
  | .hbm, ⟨14, _⟩ => ⟨S500000x1x1, .i1⟩
  | .hbm, ⟨15, _⟩ => ⟨S1x1x1, .i32⟩
  | .hbm, ⟨16, _⟩ => ⟨S500000x1x1, .i32⟩
  | .hbm, ⟨17, _⟩ => ⟨S500000x1x1, .i1⟩
  | .hbm, ⟨18, _⟩ => ⟨S500000x1x1, .i1⟩
  | .hbm, ⟨19, _⟩ => ⟨S_, .i1⟩
  | .hbm, ⟨20, _⟩ => ⟨S500000x1, .i1⟩
  | .hbm, ⟨21, _⟩ => ⟨S500000x1, .f32⟩
  | .hbm, ⟨22, _⟩ => ⟨S_, .f32⟩
  | .hbm, ⟨23, _⟩ => ⟨S500000x1, .f32⟩
  | .hbm, ⟨24, _⟩ => ⟨S500000x1, .f32⟩
  | .hbm, ⟨25, _⟩ => ⟨S500000x100, .f32⟩
  | .hbm, ⟨26, _⟩ => ⟨S500000x100, .f32⟩
  | .hbm, ⟨27, _⟩ => ⟨S_, .f32⟩
  | .hbm, ⟨28, _⟩ => ⟨S500000x100, .f32⟩
  | .hbm, ⟨29, _⟩ => ⟨S500000x100, .f32⟩
  | .hbm, ⟨30, _⟩ => ⟨S_, .f32⟩
  | .hbm, ⟨31, _⟩ => ⟨S500000x100, .f32⟩
  | .hbm, ⟨32, _⟩ => ⟨S500000x100, .f32⟩
  | .hbm, ⟨33, _⟩ => ⟨S500000x1, .i32⟩
  | .hbm, ⟨34, _⟩ => ⟨S1x100, .i32⟩
  | .hbm, ⟨35, _⟩ => ⟨S500000x100, .i32⟩
  | .hbm, ⟨36, _⟩ => ⟨S500000x100, .i32⟩
  | .hbm, ⟨37, _⟩ => ⟨S500000x100, .i1⟩
  | .hbm, ⟨38, _⟩ => ⟨S500000x100, .f32⟩
  | .hbm, ⟨39, _⟩ => ⟨S_, .f32⟩
  | .hbm, ⟨40, _⟩ => ⟨S500000x100, .f32⟩
  | .hbm, ⟨41, _⟩ => ⟨S500000x100, .f32⟩
  | .hbm, ⟨42, _⟩ => ⟨S500000x100, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S500000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_cst : Ref sig .tc := ⟨.hbm, 22, rfl⟩
abbrev main_call0_v14 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_v8 : Ref sig .tc := ⟨.hbm, 38, rfl⟩
abbrev main_cst_1 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_cst_2 : Ref sig .tc := ⟨.hbm, 43, rfl⟩
abbrev main_v12 : Ref sig .tc := ⟨.hbm, 44, rfl⟩
abbrev main_cst_3 : Ref sig .tc := ⟨.hbm, 45, rfl⟩
abbrev main_v13 : Ref sig .tc := ⟨.hbm, 46, rfl⟩

abbrev nD : Nat := 1
abbrev τ : Topo := Topo.v7x

variable {F : FTy → Type} [FloatOps F]

class Facts₀ : Prop where
  bcast_S500000_S500000x1_0 : S500000.BroadcastsInDim S500000x1 (![0] : Fin 1 → Fin S500000x1.rank)
  bcast_S_S500000x1 : S_.BroadcastsInDim S500000x1 (![] : Fin 0 → Fin S500000x1.rank)
  shapeCasts_S500000x1_S500000x1x1 : S500000x1.ShapeCasts S500000x1x1
  bcast_S_S500000x1x1 : S_.BroadcastsInDim S500000x1x1 (![] : Fin 0 → Fin S500000x1x1.rank)
  bcast_S1_S1x1x1_2 : S1.BroadcastsInDim S1x1x1 (![2] : Fin 1 → Fin S1x1x1.rank)
  bcast_S1x1x1_S500000x1x1_0_1_2 : S1x1x1.BroadcastsInDim S500000x1x1 (![0, 1, 2] : Fin 3 → Fin S500000x1x1.rank)
  reducesTo_S500000x1x1_S500000x1_d2 : S500000x1x1.ReducesTo [2] S500000x1
  h_S_ : 0 < S_.numel
  bcast_S500000x1_S500000x100_0_1 : S500000x1.BroadcastsInDim S500000x100 (![0, 1] : Fin 2 → Fin S500000x100.rank)
  bcast_S_S500000x100 : S_.BroadcastsInDim S500000x100 (![] : Fin 0 → Fin S500000x100.rank)
  bcast_S1x100_S500000x100_0_1 : S1x100.BroadcastsInDim S500000x100 (![0, 1] : Fin 2 → Fin S500000x100.rank)
  reducesTo_S500000x100_S_d0_1 : S500000x100.ReducesTo [0, 1] S_
  gather_S500000x100_S500000x1x1_S500000x1_n_1_0_0_1_2_11_wf : GatherDims.WF S500000x100 S500000x1x1 S500000x1 [] [1] [0] [1] [0] 2 ![1, 1]

variable [Facts₀]

def gather_S500000x100_S500000x1x1_S500000x1_n_1_0_0_1_2_11 : GatherDims S500000x100 S500000x1x1 S500000x1 where
  offsetDims := []
  collapsedSliceDims := [1]
  operandBatchingDims := [0]
  startIndicesBatchingDims := [0]
  startIndexMap := [1]
  indexVectorDim := 2
  sliceSizes := ![1, 1]
  wf := gather_S500000x100_S500000x1x1_S500000x1_n_1_0_0_1_2_11_wf

class Facts : Prop extends Facts₀ where

variable [Facts]
-- ==== Proof.HingeAlgebra.lean ====
/-
  The multiclass hinge loss, one row at a time, and the two ways its terms are summed.

  For a row of scores `o : Fin 100 → EReal` whose label is the class `l`, class `j` contributes
  `max 0 (1 - (o l - o j))` when `j ≠ l` and nothing when `j = l` (`rowTerm`). The kernel reaches the label's score
  `o l` as the sum over the row of the scores masked to the label's class, and drops the label's own term by a select;
  the reference reads `o l` directly and drops the label's term by multiplying with `1 - [j = l]`. Both are
  `rowTerm`: `x * (1 - 1) = x * 0 = 0` and `x * (1 - 0) = x` hold for EVERY extended real `x`, so no finiteness is used.

  The kernel sums 25 tiles of 20000 rows, and leaves tile `t`'s sum at entry (8·t, 0) of an otherwise zero [200, 128]
  array which the host then sums whole; the reference sums all 500000 rows at once. Addition of extended reals is
  commutative and associative, so both are the one sum over rows (`sum_tiles`, `sum_partials`).
-/
import Idealize.ShloMosaic.PureOps.Ideal
import Mathlib.Algebra.BigOperators.Fin
import Mathlib.Logic.Equiv.Fin.Basic

open scoped BigOperators

namespace Cert.Hinge

/-- What class `j` contributes to the hinge loss of a row `o` labelled `l`. -/
noncomputable def rowTerm (o : Fin 100 → EReal) (l j : Fin 100) : EReal :=
  if j = l then 0 else max 0 (1 - (o l - o j))

/-- Masking a row to the label's class and summing it leaves the label's score. -/
theorem masked_sum (o : Fin 100 → EReal) (l : Fin 100) :
    (∑ b : Fin 100, if b = l then o b else 0) = o l := by
  rw [Finset.sum_ite_eq' Finset.univ l o, if_pos (Finset.mem_univ l)]

/-- The kernel's term: the label's score as the masked row sum, the label's own class selected away. -/
theorem kernel_term (o : Fin 100 → EReal) (l j : Fin 100) :
    (if j = l then (0 : EReal) else max 0 (1 - ((∑ b : Fin 100, if b = l then o b else 0) - o j))) = rowTerm o l j := by
  rw [masked_sum]; rfl

/-- The reference's term: the margin times `1 - [j = l]`. -/
theorem ref_term (o : Fin 100 → EReal) (l j : Fin 100) :
    max 0 (1 - (o l - o j)) * (1 - (if j = l then (1 : EReal) else 0)) = rowTerm o l j := by
  unfold rowTerm
  by_cases h : j = l
  · rw [if_pos h, if_pos h]
    have : (1 : EReal) - 1 = 0 := by
      rw [← EReal.coe_one, ← EReal.coe_sub, sub_self, EReal.coe_zero]
    rw [this, mul_zero]
  · rw [if_neg h, if_neg h, sub_zero, mul_one]

/-- THE RESULT both programs compute: the terms of 500000 labelled rows `x i`, summed from the value of the zero word
    and divided by the value of the word of `500000.0` (the two words are the same in both programs and are never
    evaluated). -/
noncomputable def loss (x : Fin 500000 → Fin 100 → EReal) (lab : Fin 500000 → Fin 100) : EReal :=
  Idealize.ShloMosaic.Ideal.div
    (Idealize.ShloMosaic.Ideal.ofBits .f32 0x00000000#32 + ∑ i : Fin 500000, ∑ j : Fin 100, rowTerm (x i) (lab i) j)
    (Idealize.ShloMosaic.Ideal.ofBits .f32 0x48F42400#32)

/-- 500000 rows are 25 tiles of 20000: row `20000·t + a` is row `a` of tile `t`. -/
theorem sum_tiles {M : Type*} [AddCommMonoid M] (g : Fin 500000 → M) :
    ∑ i : Fin 500000, g i = ∑ t : Fin 25, ∑ a : Fin 20000, g ⟨20000 * t.val + a.val, by omega⟩ := by
  have e : ∑ i : Fin 500000, g i = ∑ p : Fin 25 × Fin 20000, g (finProdFinEquiv p) :=
    (Equiv.sum_comp (finProdFinEquiv (m := 25) (n := 20000)) g).symm
  rw [e, Fintype.sum_prod_type]
  refine Finset.sum_congr rfl fun t _ => Finset.sum_congr rfl fun a _ => congrArg g (Fin.ext ?_)
  show a.val + 20000 * t.val = 20000 * t.val + a.val
  omega

/-- A [200, 128] array that is zero but for tile `t`'s sum at entry (8·t, 0), summed whole, is the sum of the tiles' sums. -/
theorem sum_partials {M : Type*} [AddCommMonoid M] (c : Fin 25 → M) :
    (∑ r : Fin 200, ∑ q : Fin 128, if r.val % 8 = 0 ∧ q.val = 0 then c ⟨r.val / 8, by omega⟩ else 0) = ∑ t : Fin 25, c t := by
  -- along a row only column 0 can be live
  have hq : ∀ r : Fin 200, (∑ q : Fin 128, if r.val % 8 = 0 ∧ q.val = 0 then c ⟨r.val / 8, by omega⟩ else 0)
      = if r.val % 8 = 0 then c ⟨r.val / 8, by omega⟩ else 0 := by
    intro r
    by_cases hr : r.val % 8 = 0
    · rw [if_pos hr, Finset.sum_eq_single (0 : Fin 128)]
      · exact if_pos ⟨hr, rfl⟩
      · intro q _ hq0
        exact if_neg fun h => hq0 (Fin.ext h.2)
      · intro h; exact absurd (Finset.mem_univ _) h
    · rw [if_neg hr]
      exact Finset.sum_eq_zero fun q _ => if_neg fun h => hr h.1
  simp only [hq]
  -- row r = s + 8·t is row s of block t, live only at s = 0
  have e : (∑ r : Fin 200, if r.val % 8 = 0 then c ⟨r.val / 8, by omega⟩ else 0)
      = ∑ p : Fin 25 × Fin 8, (if (finProdFinEquiv p : Fin 200).val % 8 = 0 then c ⟨(finProdFinEquiv p : Fin 200).val / 8, by omega⟩ else 0) :=
    (Equiv.sum_comp (finProdFinEquiv (m := 25) (n := 8)) fun r : Fin 200 => if r.val % 8 = 0 then c ⟨r.val / 8, by omega⟩ else 0).symm
  rw [e, Fintype.sum_prod_type]
  refine Finset.sum_congr rfl fun t _ => ?_
  rw [Finset.sum_eq_single (0 : Fin 8)]
  · have hv : (finProdFinEquiv (t, (0 : Fin 8)) : Fin 200).val = 0 + 8 * t.val := rfl
    rw [if_pos (by rw [hv]; omega)]
    refine congrArg c (Fin.ext ?_)
    show (finProdFinEquiv (t, (0 : Fin 8)) : Fin 200).val / 8 = t.val
    rw [hv]; omega
  · intro s _ hs0
    have hv : (finProdFinEquiv (t, s) : Fin 200).val = s.val + 8 * t.val := rfl
    refine if_neg ?_
    rw [hv]
    intro h
    exact hs0 (Fin.ext (by show s.val = 0; omega))
  · intro h; exact absurd (Finset.mem_univ _) h

end Cert.Hinge
-- ==== Proof.Labels.lean ====
/-
  The labels of the hinge loss are class numbers: the precondition says `0 ≤ labels[i] < 100` for every row `i` (as
  signed 32-bit words). For such a word `w`
  • clamping it into `[0, 99]` changes nothing (the kernel's `clip`),
  • it is not negative, so the wrap-around `w + 100` of a negative index is not taken (the reference's
    `take_along_axis`), and its range test `0 ≤ w ≤ 99` passes,
  • read signed it is its own value `w.toNat`, below 100, and it equals the word of a class number `j < 100` exactly
    when `j` is that value (both programs' one-hot masks).
-/
import proofs.«422178_j67345087201366_2_alg».proof.Pre_finite_inputs
import Idealize.ShloMosaic.Lib.ReduceAll
import Idealize.ShloMosaic.Lib.Affine
import Idealize.ShloMosaic.Lib.ValueIdx
import Idealize.ShloMosaic.Lib.StableHlo.Predicate

noncomputable section

namespace Cert.Hinge

open Idealize.ShloMosaic Idealize.ShloMosaic.ValueIdx

/-- A word in `[0, 100)` signed is below 100 unsigned. -/
theorem toNat_lt_of_signed (w : BitVec 32) (h0 : IntOp.cmpi .sge w 0#32 = 1#1) (h1 : IntOp.cmpi .slt w 100#32 = 1#1) :
    w.toNat < 100 := by
  have e0 : (0#32 : BitVec 32).toInt = 0 := by decide
  have e1 : (100#32 : BitVec 32).toInt = 100 := by decide
  have h0' := IntOp.cmpi_sge.1 h0
  have h1' := IntOp.cmpi_slt.1 h1
  rw [e0] at h0'; rw [e1] at h1'
  have hw := w.isLt
  rw [BitVec.toInt_eq_toNat_cond] at h0' h1'
  split at h0' <;> omega

/-- THE PRECONDITION, decoded: every label is a class number. -/
theorem labels_lt {F : FTy → Type} [FloatOps F] [Cert.Pre_finite_inputs.Facts]
    (x0 : FVec F Cert.Pre_finite_inputs.S500000x100 .f32) (x1 : IVec Cert.Pre_finite_inputs.S500000 32)
    (h : Cert.Pre_finite_inputs.fn (F := F) x0 x1 = fun _ => 1#1) (i : Fin 500000) : (x1 (ix1 i)).toNat < 100 := by
  have e := congrFun h ix0
  dsimp only [Cert.Pre_finite_inputs.fn] at e
  have e2 := (IntOp.andi_eq_one.1 e).2
  haveI : Subsingleton Cert.Pre_finite_inputs.S_.Idx := ⟨fun a b => funext fun d => d.elim0⟩
  have e3 := Host.reduce_andi_all _ _ _ _ _ e2 (ix1 i)
  obtain ⟨ha, hb⟩ := IntOp.andi_eq_one.1 e3
  exact toNat_lt_of_signed _ ha hb

section Word
variable (w : BitVec 32) (hw : w.toNat < 100)
include hw

/-- A class number read signed is itself. -/
theorem label_toInt : w.toInt = (w.toNat : Int) :=
  StableHlo.Predicate.toInt_eq_toNat_of_lt (by omega)

/-- The kernel's clamp into `[0, 99]` leaves a class number alone. -/
theorem clamp_label : IntOp.minsi 99#32 (IntOp.maxsi 0#32 w) = w := by
  have hti := label_toInt w hw
  have e0 : (0#32 : BitVec 32).toInt = 0 := by decide
  have e99 : (99#32 : BitVec 32).toInt = 99 := by decide
  have hmax : IntOp.maxsi 0#32 w = w := by
    unfold IntOp.maxsi
    rw [if_neg]
    simp only [BitVec.slt, hti, e0, decide_eq_true_eq]; omega
  rw [hmax]
  unfold IntOp.minsi
  rw [if_neg]
  simp only [BitVec.slt, hti, e99, decide_eq_true_eq]; omega

/-- A class number is not negative … -/
theorem label_not_neg : IntOp.cmpi .slt w 0#32 = 0#1 := by
  refine eq_zero_of_ne_one fun h => ?_
  have := IntOp.cmpi_slt.1 h
  have e0 : (0#32 : BitVec 32).toInt = 0 := by decide
  rw [label_toInt w hw, e0] at this; omega

/-- … and passes the range test `0 ≤ w ≤ 99`. -/
theorem label_in_range : IntOp.andi (IntOp.cmpi .sge w 0#32) (IntOp.cmpi .sle w 99#32) = 1#1 := by
  have e0 : (0#32 : BitVec 32).toInt = 0 := by decide
  have e99 : (99#32 : BitVec 32).toInt = 99 := by decide
  refine IntOp.andi_eq_one.2 ⟨IntOp.cmpi_sge.2 ?_, IntOp.cmpi_sle.2 ?_⟩
  · rw [label_toInt w hw, e0]; omega
  · rw [label_toInt w hw, e99]; omega

/-- Its start index into an axis of extent 100 is its own value. -/
theorem label_start : min w.toInt.toNat (100 - 1) = w.toNat := by
  rw [label_toInt w hw]; simp only [Int.toNat_natCast]; omega

/-- The word of class `j` is the label exactly when `j` is the label's value. -/
theorem ofNat_eq_label (j : Fin 100) : BitVec.ofNat 32 j.val = w ↔ j.val = w.toNat := by
  constructor
  · intro h; rw [← h, BitVec.toNat_ofNat]; have := j.isLt; omega
  · intro h; apply BitVec.eq_of_toNat_eq; rw [BitVec.toNat_ofNat, h]; omega

end Word

end Cert.Hinge

end
-- ==== Proof.LibTakeAlong.lean ====
/-
  `jnp.take_along_axis(x, idx, axis=1)` of a matrix `x : [N, C]` at a column of indices `idx : [N, 1]` lowers to a
  `stablehlo.gather` whose start indices are the column reshaped to `[N, 1, 1]`, with operand batching axis 0 paired with
  start-indices batching axis 0, collapsed slice axis 1, start index map `[1]`, index vector axis 2 and unit slices.
  Read at result index `(i, 0)` it is the operand at row `i` (the batching coordinate) and at the column the start index
  `idx[i, 0, 0]` names, read as a signed integer and clamped into `[0, C - 1]` as StableHLO's gather clamps every start
  index. This is the companion, for a gather ALONG A ROW, of the library's lemma for `x[idx]` of a flat array.
-/
import Idealize.ShloMosaic.Lib.ValueIdx

noncomputable section

namespace Cert.LibTakeAlong

open Idealize.ShloMosaic Idealize.ShloMosaic.ValueIdx

variable {α : Type}

/-- `take_along_axis(·, ·, axis=1)`'s dimension numbers for an operand `[N, C]`, start indices `[N, 1, 1]` and a result
    `[N, 1]`; their conditions `wf` are decided on a program's literal shapes. -/
abbrev takeAlongDims (N C : Nat)
    (wf : GatherDims.WF ⟨2, ![N, C]⟩ ⟨3, ![N, 1, 1]⟩ ⟨2, ![N, 1]⟩ [] [1] [0] [1] [0] 2 ![1, 1]) :
    GatherDims ⟨2, ![N, C]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- THE GATHER READ AT `(i, 0)`: row `i` of the operand at the column `idx[i, 0, 0]`, read signed and clamped into
    `[0, C - 1]`. -/
theorem gather_takeAlong_apply {N C w : Nat} (hC : 0 < C)
    (wf : GatherDims.WF ⟨2, ![N, C]⟩ ⟨3, ![N, 1, 1]⟩ ⟨2, ![N, 1]⟩ [] [1] [0] [1] [0] 2 ![1, 1])
    (x : (⟨2, ![N, C]⟩ : Shape).Idx → α) (idx : IVec ⟨3, ![N, 1, 1]⟩ w) (i : Fin N) :
    Host.gather (takeAlongDims N C wf) x idx (ix2 i (0 : Fin 1))
      = x (ix2 i ⟨min (idx (ix3 i (0 : Fin 1) (0 : Fin 1))).toInt.toNat (C - 1), by omega⟩) := by
  unfold Host.gather
  congr 1
  funext a
  refine Fin.ext ?_
  match a with
  | ⟨0, _⟩ =>
    -- the batching axis: no start component, no offset; the batching coordinate is the result's row
    show (takeAlongDims N C wf).start (ix2 i (0 : Fin 1)) idx 0 + (takeAlongDims N C wf).batchCoord (ix2 i (0 : Fin 1)) 0
        + (takeAlongDims N C wf).offCoord (ix2 i (0 : Fin 1)) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    unfold GatherDims.batchCoord
    rw [dif_pos (show (0 : Fin 2) ∈ (takeAlongDims N C wf).operandBatchingDims from List.mem_singleton.mpr rfl)]
    rfl
  | ⟨1, _⟩ =>
    -- the gathered axis: the clamped start index, no batching coordinate, no offset (the axis is collapsed)
    show (takeAlongDims N C wf).start (ix2 i (0 : Fin 1)) idx 1 + (takeAlongDims N C wf).batchCoord (ix2 i (0 : Fin 1)) 1
        + (takeAlongDims N C wf).offCoord (ix2 i (0 : Fin 1)) 1 = min (idx (ix3 i (0 : Fin 1) (0 : Fin 1))).toInt.toNat (C - 1)
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeAlongDims N C wf).startIndexMap from List.mem_singleton.mpr rfl)]
    have hsi : (takeAlongDims N C wf).siIdx (ix2 i (0 : Fin 1)) ⟨List.idxOf (1 : Fin 2) (takeAlongDims N C wf).startIndexMap,
        List.idxOf_lt_length_iff.2 (List.mem_singleton.mpr rfl)⟩ = ix3 i (0 : Fin 1) (0 : Fin 1) := by
      funext b; refine Fin.ext ?_
      match b with
      | ⟨0, _⟩ => rfl
      | ⟨1, _⟩ => rfl
      | ⟨2, _⟩ => rfl
    rw [hsi]
    rfl

end Cert.LibTakeAlong

end
-- ==== Proof.LibReduceAnd.lean ====
/-
  `jnp.all` in the other direction: a `stablehlo.reduce` by `and` of one-bit words, every one of which is 1, from an
  initial value that is 1, is 1 at every result index (the library's Lib/ReduceAll.lean reads a result that is 1 back into
  its operand; this is the converse, for a range test that is known to pass everywhere).
-/
import Idealize.ShloMosaic.Lib.ReduceAll

namespace Cert.LibReduceAnd

open Idealize.ShloMosaic

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 by decide]
    exact foldl_andi_one f hf l

/-- A reduce by `and` of an operand that is 1 everywhere, from an initial value that is 1, is 1. -/
theorem reduce_andi_of_all {s t u : Shape} {axes : List (Fin s.rank)} (x : s.Idx → BitVec 1) (init : u.Idx → BitVec 1)
    (h : s.ReducesTo axes t) (hu : 0 < u.numel) (j : t.Idx) (hx : ∀ i, x i = 1#1) (hi : init (Shape.Idx.first hu) = 1#1) :
    Host.reduce IntOp.andi x init h hu j = 1#1 := by
  rw [Host.reduce_eq_foldl, hi]
  exact foldl_andi_one x hx _

end Cert.LibReduceAnd
-- ==== Proof.RefSide.lean ====
/-
  The reference's result, read at the ideal values, is the mean hinge loss `Cert.Hinge.loss` of the score rows and the
  labels' class numbers.

  Under the precondition every label word `w = labels[i]` is a class number (Proof/Labels.lean), so in
  `take_along_axis` the negative-index wrap is not taken, the range test passes and the gather reads `x[i, w]`
  (Proof/LibTakeAlong.lean: the start index is already inside `[0, 99]`); the one-hot factor `1 - [w = j]` is `0` at the
  label's class and `1` elsewhere. Entry `(i, j)` of the summed array is therefore `rowTerm (x i) w j`
  (Proof/HingeAlgebra.lean `ref_term`), and the sum over the rank-2 index set is the double sum over rows and classes.
-/
import proofs.«422178_j67345087201366_2_alg».proof.Proof.RefRead
import proofs.«422178_j67345087201366_2_alg».proof.Proof.HingeAlgebra
import proofs.«422178_j67345087201366_2_alg».proof.Proof.Labels
import proofs.«422178_j67345087201366_2_alg».proof.Proof.LibTakeAlong
import proofs.«422178_j67345087201366_2_alg».proof.Proof.LibReduceAnd
import Idealize.ShloMosaic.Lib.ValueIdx
import Idealize.ShloMosaic.PureOps.IdealRules

noncomputable section

namespace Cert.Hinge.Ref

open Cert.ReferenceIdeal Cert.ReferenceIdeal.Gen Cert.ReferenceIdeal.ReadP
open Idealize.ShloMosaic Idealize.ShloMosaic.ValueIdx

/-- The score rows of the `[500000, 100]` array. -/
abbrev rows (x0 : FVec Ideal S500000x100 .f32) : Fin 500000 → Fin 100 → EReal := fun i b => x0 (ix2 i b)

/-- The labels' class numbers. -/
abbrev labs (x1 : IVec S500000 32) (hl : ∀ i : Fin 500000, (x1 (ix1 i)).toNat < 100) : Fin 500000 → Fin 100 :=
  fun i => ⟨(x1 (ix1 i)).toNat, hl i⟩

/-- The value of the word of `1.0`. -/
theorem one_word : Ideal.ofBits .f32 0x3F800000#32 = 1 := IdealRules.sign_bit.ideal_onePat .f32

variable (x0 : FVec Ideal S500000x100 .f32) (x1 : IVec S500000 32) (hl : ∀ i : Fin 500000, (x1 (ix1 i)).toNat < 100)
include hl

/-- The start index `take_along_axis` hands the gather for row `i` is the label itself: a class number is not wrapped. -/
theorem start_word (i : Fin 500000) (b c : Fin 1) : val_main_call0_v5 (F := Ideal) x1 (ix3 i b c) = x1 (ix1 i) := by
  have hi : idx_main_v0 (idx_main_call0_v5 (ix3 i b c)) = ix1 i := by
    funext a; refine Fin.ext ?_
    match a with
    | ⟨0, _⟩ =>
      show ((i.val * 1 + b.val) * 1 + c.val) / 1 = i.val
      have := b.isLt; have := c.isLt; omega
  rw [val_main_call0_v5_apply, val_main_call0_v4_apply, val_main_call0_v1_apply, val_main_v0_apply, hi,
    val_main_call0_v0_apply, val_main_call0_c_apply, label_not_neg _ (hl i), select_zero]

/-- The range test passes at every index. -/
theorem in_range (k : S500000x1.Idx) : val_main_call0_v12 (F := Ideal) x1 k = 1#1 := by
  unfold val_main_call0_v12
  refine Cert.LibReduceAnd.reduce_andi_of_all _ _ _ _ _ (fun k3 => ?_) rfl
  obtain ⟨a, b, c, rfl⟩ : ∃ (a : Fin 500000) (b c : Fin 1), k3 = ix3 a b c := ⟨k3 0, k3 1, k3 2, eq_ix3 k3⟩
  rw [val_main_call0_v11_apply, val_main_call0_v7_apply, val_main_call0_v10_apply, start_word x1 hl,
    val_main_call0_v6_apply, val_main_call0_c_2_apply, val_main_call0_v9_apply, val_main_call0_v8_apply,
    val_main_call0_c_1_apply]
  exact label_in_range _ (hl a)

/-- `take_along_axis` reads row `i` at its label's class. -/
theorem taken (i : Fin 500000) : val_main_v1 (F := Ideal) x0 x1 (ix2 i (0 : Fin 1)) = x0 (ix2 i (labs x1 hl i)) := by
  rw [val_main_v1_apply, in_range x1 hl, select_one]
  unfold val_main_call0_v13
  refine (Cert.LibTakeAlong.gather_takeAlong_apply (N := 500000) (C := 100) (by decide)
    Facts₀.gather_S500000x100_S500000x1x1_S500000x1_n_1_0_0_1_2_11_wf x0 (val_main_call0_v5 (F := Ideal) x1) i).trans ?_
  refine congrArg x0 ?_
  funext a; refine Fin.ext ?_
  match a with
  | ⟨0, _⟩ => rfl
  | ⟨1, _⟩ =>
    show min (val_main_call0_v5 (F := Ideal) x1 (ix3 i (0 : Fin 1) (0 : Fin 1))).toInt.toNat (100 - 1) = (x1 (ix1 i)).toNat
    rw [start_word x1 hl]
    exact label_start _ (hl i)

/-- The one-hot factor's word: 1 at the label's class, 0 elsewhere. -/
theorem one_hot (i : Fin 500000) (j : Fin 100) :
    (FloatOps.uitofp (F := Ideal) .f32 (IntOp.cmpi .eq (x1 (ix1 i)) (BitVec.ofNat 32 j.val)) : EReal)
      = if j = labs x1 hl i then 1 else 0 := by
  by_cases h : j = labs x1 hl i
  · rw [if_pos h]
    have hw : x1 (ix1 i) = BitVec.ofNat 32 j.val :=
      ((ofNat_eq_label _ (hl i) j).2 (by rw [h])).symm
    rw [IntOp.cmpi_eq.2 hw]
    show (((1#1 : BitVec 1).toNat : ℝ) : EReal) = 1
    simp
  · rw [if_neg h]
    have hw : ¬ x1 (ix1 i) = BitVec.ofNat 32 j.val := fun e =>
      h (Fin.ext ((ofNat_eq_label _ (hl i) j).1 e.symm))
    rw [eq_zero_of_ne_one (fun e => hw (IntOp.cmpi_eq.1 e))]
    show (((0#1 : BitVec 1).toNat : ℝ) : EReal) = 0
    simp

/-- Entry `(i, j)` of the array the reference sums is class `j`'s term of row `i`. -/
theorem summand (i : Fin 500000) (j : Fin 100) :
    val_main_v11 (F := Ideal) x0 x1 (ix2 i j) = rowTerm (rows x0 i) (labs x1 hl i) j := by
  have h2 : idx_main_v2 (ix2 i j) = ix2 i (0 : Fin 1) := by
    funext a; refine Fin.ext ?_
    match a with
    | ⟨0, _⟩ => rfl
    | ⟨1, _⟩ => rfl
  have hc0 : idx_main_call1_v0 (idx_main_call1_v2 (ix2 i j)) = ix1 i := by
    funext a; refine Fin.ext ?_
    match a with
    | ⟨0, _⟩ => rfl
  rw [val_main_v11_apply, val_main_v7_apply, val_main_v6_apply, val_main_cst_0_apply, val_main_v5_apply,
    val_main_v4_apply, val_main_cst_apply, val_main_v3_apply, val_main_v2_apply, h2, taken x0 x1 hl,
    val_main_v10_apply, val_main_v9_apply, val_main_cst_1_apply, val_main_v8_apply, val_main_call1_v4_apply,
    val_main_call1_v2_apply, val_main_call1_v0_apply, hc0, val_main_call1_v3_apply, val_main_call1_v1_apply]
  show max (Ideal.ofBits .f32 0x00000000#32) (Ideal.ofBits .f32 0x3F800000#32 - (x0 (ix2 i (labs x1 hl i)) - x0 (ix2 i j)))
      * (Ideal.ofBits .f32 0x3F800000#32 - (FloatOps.uitofp (F := Ideal) .f32 (IntOp.cmpi .eq (x1 (ix1 i)) (BitVec.ofNat 32 j.val)) : EReal))
    = rowTerm (rows x0 i) (labs x1 hl i) j
  rw [Ideal.ofBits_zero_f32, one_word, one_hot x1 hl]
  exact ref_term (rows x0 i) (labs x1 hl i) j

/-- THE REFERENCE'S RESULT is the mean hinge loss. -/
theorem result : val_main_v13 (F := Ideal) x0 x1 = fun _ => loss (rows x0) (labs x1 hl) := by
  funext k
  rw [val_main_v13_apply, val_main_v12_apply, val_main_cst_3_apply, val_main_cst_2_apply]
  have hs : (∑ j : S500000x100.Idx, val_main_v11 (F := Ideal) x0 x1 j)
      = ∑ a : Fin 500000, ∑ b : Fin 100, rowTerm (rows x0 a) (labs x1 hl a) b :=
    (sum_idx2 fun j => val_main_v11 (F := Ideal) x0 x1 j).trans
      (Finset.sum_congr rfl fun a _ => Finset.sum_congr rfl fun b _ => summand x0 x1 hl a b)
  rw [hs]
  rfl

end Cert.Hinge.Ref

end
-- ==== Proof.KernelPayload.lean ====
/-
  What the kernel's body stores at a grid point, read at an index of the [8, 128] output block.

  The body loads a tile of scores `x0 : [20000, 100]` and the tile's label column `x1 : [20000, 1]`. With
  `mask[a, b] = (b = x1[a, 0])` it forms, per row, the label's score as the row sum of the scores masked to the label's
  class, then per class `max 0 (1 - (that score - x0[a, b]))`, selected to zero where the mask is set, and sums
  everything into one number (a reduction of the [1, 20000, 100] view over both tile axes into [1], read out as a
  scalar). The stored [8, 128] block holds that number at entry (0, 0) and the zero word's value elsewhere
  (`pay_apply`). Where row `a`'s label word is a class number, the select on "class = label" is the `if` on the class and
  class `b`'s term is `Cert.Hinge.rowTerm` of the row (`tileTerm_eq`, by Proof/HingeAlgebra.lean `kernel_term`).

  Each layout operation is read at an index by the library's lemma for it; the two reductions are the extended reals'
  sums (PureOps/Ideal/Laws.lean), the total one re-indexed through the shape cast's bijection of index sets, so no sum
  is ever evaluated.
-/
import proofs.«422178_j67345087201366_2_alg».proof.Proof.Gen.KernelIdeal.Skeleton
import proofs.«422178_j67345087201366_2_alg».proof.Proof.HingeAlgebra
import Idealize.ShloMosaic.Lib.ValueIdx
import Idealize.ShloMosaic.Lib.Pipeline.Value
import Idealize.ShloMosaic.PureOps.Ideal.Laws
import Idealize.ShloMosaic.PureOps.IdealRules
import Idealize.ShloMosaic.Lib.Affine
import proofs.«422178_j67345087201366_2_alg».proof.Proof.Labels

noncomputable section

namespace Cert.Hinge.Kernel

open Cert.KernelIdeal Cert.KernelIdeal.Gen
open Idealize.ShloMosaic Idealize.ShloMosaic.ValueIdx

/-- The word of a small number is the zero word exactly when the number is zero. -/
theorem cmpi_ofNat_zero (n : Nat) (hn : n < 2 ^ 32) : IntOp.cmpi .eq (BitVec.ofNat 32 n) 0#32 = if n = 0 then 1#1 else 0#1 := by
  split
  · rename_i h; subst h; rfl
  · rename_i h
    refine eq_zero_of_ne_one fun e => h ?_
    have := congrArg BitVec.toNat (IntOp.cmpi_eq.1 e)
    rw [BitVec.toNat_ofNat, Nat.mod_eq_of_lt hn] at this
    exact this

/-- The store's mask: entry (0, 0) of the [8, 128] block and nothing else. -/
theorem mask_apply (h0 : S8x128.Iotas .tc 32 [0]) (h1 : S8x128.Iotas .tc 32 [1]) (r : Fin 8) (q : Fin 128) :
    andi (cmpi .eq (iota .tc S8x128 32 [0] h0) (broadcast S8x128 0#32)) (cmpi .eq (iota .tc S8x128 32 [1] h1) (broadcast S8x128 0#32)) (ix2 r q)
      = if r.val = 0 ∧ q.val = 0 then 1#1 else 0#1 := by
  show IntOp.andi (IntOp.cmpi .eq (iota .tc S8x128 32 [0] h0 (ix2 r q)) 0#32) (IntOp.cmpi .eq (iota .tc S8x128 32 [1] h1 (ix2 r q)) 0#32) = _
  rw [iota_single_apply, iota_single_apply]
  show IntOp.andi (IntOp.cmpi .eq (BitVec.ofNat 32 r.val) 0#32) (IntOp.cmpi .eq (BitVec.ofNat 32 q.val) 0#32) = _
  rw [cmpi_ofNat_zero _ (by have := r.isLt; omega), cmpi_ofNat_zero _ (by have := q.isLt; omega)]
  by_cases hr : r.val = 0 <;> by_cases hq : q.val = 0 <;> simp [hr, hq] <;> decide

/-- A row's label, kept as an [N, 1] column and spread along the row, reads the row's label at every class. -/
theorem label_apply {α : Type} (x1 : S20000x1.Idx → α) (h1 : S20000x1.ShapeCasts S20000x1) (h2 : S20000x1.Broadcasts S20000x100)
    (a : Fin 20000) (b : Fin 100) :
    broadcastTo S20000x100 (shapeCast S20000x1 x1 h1) h2 (ix2 a b) = x1 (ix2 a (0 : Fin 1)) := by
  rw [shapeCast_self]
  exact broadcastTo_apply x1 h2 (ix2 a b) (ix2 a (0 : Fin 1)) (fun d => match d with
    | ⟨0, _⟩ => by show a.val = if (20000 : Nat) = 1 then 0 else a.val; rw [if_neg (by decide)]
    | ⟨1, _⟩ => by show 0 = if (1 : Nat) = 1 then 0 else b.val; rw [if_pos rfl])

/-- The class number along a row. -/
theorem class_apply (h : S20000x100.Iotas .tc 32 [1]) (a : Fin 20000) (b : Fin 100) :
    iota .tc S20000x100 32 [1] h (ix2 a b) = BitVec.ofNat 32 b.val := iota_single_apply _ _ _ _ h _

/-- A row sum, kept as an [N, 1] column and spread along the row, reads the row's sum at every class. -/
theorem rowsum_apply (v : FVec Ideal S20000x100 .f32) (hr : S20000x100.Reduces [1] S20000) (hφ : FKind.Formats .f32)
    (hacc : (0x00000000#32 : BitVec 32) = 0x00000000#32) (hs : S20000.ShapeCasts S20000x1)
    (hb : S20000x1.Broadcasts S20000x100) (a : Fin 20000) (b : Fin 100) :
    broadcastTo S20000x100 (shapeCast S20000x1 (multiReduction .add [1] S20000 v 0x00000000#32 hr hφ hacc) hs) hb (ix2 a b)
      = ∑ b' : Fin 100, v (ix2 a b') := by
  refine (broadcastTo_apply _ hb (ix2 a b) (ix2 a (0 : Fin 1)) (fun d => match d with
    | ⟨0, _⟩ => by show a.val = if (20000 : Nat) = 1 then 0 else a.val; rw [if_neg (by decide)]
    | ⟨1, _⟩ => by show 0 = if (1 : Nat) = 1 then 0 else b.val; rw [if_pos rfl])).trans ?_
  refine (shapeCast_apply _ hs (ix2 a (0 : Fin 1)) (ix1 a) (by
    rw [Shape.rowMajor_val_one, Shape.rowMajor_val_two]; show a.val = a.val * 1 + 0; omega)).trans ?_
  refine (Ideal.multiReduction_add_single v _ hr hφ hacc (ix1 a)).trans ?_
  exact Finset.sum_congr rfl fun b' _ => congrArg v (funext fun d => Fin.ext (match d with | ⟨0, _⟩ => rfl | ⟨1, _⟩ => rfl))

/-- The tile's total: the [1]-vector of the sum over the whole [1, 20000, 100] view, read out as a scalar, is the double sum
    over rows and classes. -/
theorem total_apply (v : FVec Ideal S20000x100 .f32) (h1 : S20000x100.ShapeCasts S1x20000x100) (hr : S1x20000x100.Reduces [1, 2] S1)
    (hφ : FKind.Formats .f32) (hacc : (0x00000000#32 : BitVec 32) = 0x00000000#32) (h2 : S1.ShapeCasts S1x1x1)
    (h3 : ∀ a, (![0, 0, 0] : Fin 3 → Nat) a < S1x1x1.size a) :
    extractAt ![0, 0, 0] (shapeCast S1x1x1 (multiReduction .add [1, 2] S1 (shapeCast S1x20000x100 v h1) 0x00000000#32 hr hφ hacc) h2) h3
      = ∑ a : Fin 20000, ∑ b : Fin 100, v (ix2 a b) := by
  show multiReduction .add [1, 2] S1 (shapeCast S1x20000x100 v h1) 0x00000000#32 hr hφ hacc (Shape.reshapeEquiv h2 _) = _
  refine (Ideal.multiReduction_add_total _ _ hr (fun b => match b with | ⟨0, _⟩ => rfl) hφ hacc _).trans ?_
  refine Eq.trans ?_ (sum_idx2 v)
  exact Equiv.sum_comp (Shape.reshapeEquiv h1) v

/-- A vector comparison of words reads the comparison of the elements. -/
theorem cmpi_apply {s : Shape} {w : Nat} (p : CmpIPredicate) (x y : IVec s w) (i : s.Idx) : cmpi p x y i = IntOp.cmpi p (x i) (y i) := rfl

/-- The scores of a row masked to the label's class, at class `b'`. -/
theorem maskedrow_apply (x0 : FVec Ideal S20000x100 .f32) (x1 : IVec S20000x1 32) (z : EReal) (hi : S20000x100.Iotas .tc 32 [1])
    (h1 : S20000x1.ShapeCasts S20000x1) (h2 : S20000x1.Broadcasts S20000x100) (a : Fin 20000) (b' : Fin 100) :
    select (cmpi .eq (iota .tc S20000x100 32 [1] hi) (broadcastTo S20000x100 (shapeCast S20000x1 x1 h1) h2)) x0
        (broadcast S20000x100 z) (ix2 a b')
      = Scalar.select (IntOp.cmpi .eq (BitVec.ofNat 32 b'.val) (x1 (ix2 a (0 : Fin 1)))) (x0 (ix2 a b')) z := by
  rw [select_apply, cmpi_apply, class_apply, label_apply, broadcast_apply]

/-- The masked row's sum, spread back along the row. -/
theorem maskedsum_apply (x0 : FVec Ideal S20000x100 .f32) (x1 : IVec S20000x1 32) (z : EReal) (hi : S20000x100.Iotas .tc 32 [1])
    (h1 : S20000x1.ShapeCasts S20000x1) (h2 : S20000x1.Broadcasts S20000x100)
    (hr : S20000x100.Reduces [1] S20000) (hφ : FKind.Formats .f32) (hacc : (0x00000000#32 : BitVec 32) = 0x00000000#32)
    (hs : S20000.ShapeCasts S20000x1) (hb : S20000x1.Broadcasts S20000x100) (a : Fin 20000) (b : Fin 100) :
    broadcastTo S20000x100 (shapeCast S20000x1 (multiReduction .add [1] S20000
        (select (cmpi .eq (iota .tc S20000x100 32 [1] hi) (broadcastTo S20000x100 (shapeCast S20000x1 x1 h1) h2)) x0
          (broadcast S20000x100 z)) 0x00000000#32 hr hφ hacc) hs) hb (ix2 a b)
      = ∑ b' : Fin 100, Scalar.select (IntOp.cmpi .eq (BitVec.ofNat 32 b'.val) (x1 (ix2 a (0 : Fin 1)))) (x0 (ix2 a b')) z :=
  (rowsum_apply _ hr hφ hacc hs hb a b).trans
    (Finset.sum_congr rfl fun b' _ => maskedrow_apply x0 x1 z hi h1 h2 a b')

/-- Class `b`'s term of row `a` of a tile, as the kernel's body computes it from the tile's scores `x0` and label column
    `x1`: the row's score at the label is the row sum of the scores masked to the label's class; the term is selected away
    at the label's own class. -/
def tileTerm (x0 : Vec Ideal S20000x100 .f32) (x1 : Vec Ideal S20000x1 .i32) (a : Fin 20000) (b : Fin 100) : EReal :=
  Scalar.select (IntOp.cmpi .eq (BitVec.ofNat 32 b.val) (x1 (ix2 a (0 : Fin 1)))) (Ideal.ofBits .f32 0x00000000#32)
    (max (Ideal.ofBits .f32 0x00000000#32) (Ideal.ofBits .f32 0x3F800000#32 -
      ((∑ b' : Fin 100, Scalar.select (IntOp.cmpi .eq (BitVec.ofNat 32 b'.val) (x1 (ix2 a (0 : Fin 1)))) (x0 (ix2 a b'))
          (Ideal.ofBits .f32 0x00000000#32)) - x0 (ix2 a b))))

/-- THE STORED BLOCK: the tile's sum of terms at entry (0, 0), the zero word's value everywhere else. -/
theorem pay_apply (x0 : Vec Ideal S20000x100 .f32) (x1 : Vec Ideal S20000x1 .i32) (r : Fin 8) (q : Fin 128) :
    k0_pay1 (F := Ideal) x0 x1 (ix2 r q)
      = if r.val = 0 ∧ q.val = 0 then ∑ a : Fin 20000, ∑ b : Fin 100, tileTerm x0 x1 a b else Ideal.ofBits .f32 0x00000000#32 := by
  unfold k0_pay1
  dsimp only
  rw [select_apply, mask_apply, broadcast_apply, broadcast_apply, total_apply]
  by_cases h : r.val = 0 ∧ q.val = 0
  · rw [if_pos h, if_pos h, select_one]
    refine Finset.sum_congr rfl fun a _ => Finset.sum_congr rfl fun b _ => ?_
    rw [select_apply, cmpi_apply, class_apply, label_apply, broadcast_apply, maximumf_apply, broadcast_apply, subf_apply,
      broadcast_apply, subf_apply, maskedsum_apply]
    rfl
  · rw [if_neg h, if_neg h, select_zero]; rfl

/-- Where the label word `w` is a class number, the select on "class `b` = label" is the `if` on the class. -/
theorem select_class {α : Type} (w : BitVec 32) (hw : w.toNat < 100) (b : Fin 100) (A B : α) :
    Scalar.select (IntOp.cmpi .eq (BitVec.ofNat 32 b.val) w) A B = if b = (⟨w.toNat, hw⟩ : Fin 100) then A else B := by
  by_cases h : b = ⟨w.toNat, hw⟩
  · rw [if_pos h, IntOp.cmpi_eq.2 ((ofNat_eq_label w hw b).2 (by rw [h])), select_one]
  · rw [if_neg h, eq_zero_of_ne_one (fun e => h (Fin.ext ((ofNat_eq_label w hw b).1 (IntOp.cmpi_eq.1 e)))), select_zero]

/-- Where row `a`'s label is a class number, the kernel's term for class `b` is the hinge term of the row. -/
theorem tileTerm_eq (x0 : Vec Ideal S20000x100 .f32) (x1 : Vec Ideal S20000x1 .i32) (a : Fin 20000) (b : Fin 100)
    (hw : BitVec.toNat (x1 (ix2 a (0 : Fin 1))) < 100) :
    tileTerm x0 x1 a b = rowTerm (fun b' => x0 (ix2 a b')) ⟨BitVec.toNat (x1 (ix2 a (0 : Fin 1))), hw⟩ b := by
  have one_word : Ideal.ofBits .f32 0x3F800000#32 = 1 := IdealRules.sign_bit.ideal_onePat .f32
  unfold tileTerm
  rw [select_class _ hw, Ideal.ofBits_zero_f32, one_word]
  have hs : (∑ b' : Fin 100, Scalar.select (IntOp.cmpi .eq (BitVec.ofNat 32 b'.val) (x1 (ix2 a (0 : Fin 1)))) (x0 (ix2 a b')) (0 : EReal))
      = ∑ b' : Fin 100, if b' = (⟨BitVec.toNat (x1 (ix2 a (0 : Fin 1))), hw⟩ : Fin 100) then x0 (ix2 a b') else 0 :=
    Finset.sum_congr rfl fun b' _ => select_class _ hw b' _ _
  rw [hs]
  exact kernel_term (fun b' => x0 (ix2 a b')) _ b

end Cert.Hinge.Kernel

end
-- ==== Proof.KernelArray.lean ====
/-
  The kernel's result, read at the ideal values, is the mean hinge loss `Cert.Hinge.loss` of the score rows and the
  labels' class numbers.

  The grid has 25 points; at point `t` the body reads rows `20000·t … 20000·t + 19999` of the scores and of the label
  column (the labels clamped into `[0, 99]` by the host lines before the region, then laid as an [N, 1] column), and writes
  block `t` (rows `8·t … 8·t + 7`) of a [200, 128] array: the tile's sum of terms at the block's entry (0, 0), zero elsewhere
  (Proof/KernelPayload.lean). So every point writes back its block of ONE whole-array function `partials`, the blocks tile
  the array, and the array ends holding `partials`. The host lines after the region sum that array from the zero word and
  divide by the word of `500000.0`. Under the precondition every label is a class number, so the clamp changes nothing
  and each tile's sum is the hinge terms of its rows; the array's sum is the sum of the 25 tile sums, which is the sum over
  all 500000 rows (Proof/HingeAlgebra.lean `sum_partials`, `sum_tiles`).
-/
import proofs.«422178_j67345087201366_2_alg».proof.Proof.Gen.KernelIdeal.Frame
import proofs.«422178_j67345087201366_2_alg».proof.Proof.KernelPayload
import proofs.«422178_j67345087201366_2_alg».proof.Proof.HingeAlgebra
import proofs.«422178_j67345087201366_2_alg».proof.Proof.Labels
import Idealize.ShloMosaic.Lib.Pipeline.Value
import Idealize.ShloMosaic.Lib.ValueIdx
import Idealize.ShloMosaic.Lib.StableHlo.Run
import Idealize.ShloMosaic.Lib.StableHlo.Predicate
import Idealize.ShloMosaic.Lib.IdealHost
import Idealize.ShloMosaic.PureOps.Ideal.Laws

set_option maxRecDepth 16384

noncomputable section

namespace Cert.Hinge.Kernel

open Cert.KernelIdeal Cert.KernelIdeal.Gen
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided once over the grid: at point `t` every window is at block `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- There are 25 points. -/
theorem lt25 (t : Fin cfg0.N) : t.val < 25 := lt_of_lt_of_eq t.isLt N_0

/-- The label column the region finds: the labels clamped into `[0, 99]`, laid as an [N, 1] column. -/
theorem labcol_eq (c : Dev nD) :
    (V m c main_v1 : S500000x1.Idx → BitVec 32)
      = shapeCast S500000x1 (minsi (broadcastInDim S500000 ![] bcast_S_S500000 (constantI S_ 32 99#32))
          (maxsi (broadcastInDim S500000 ![] bcast_S_S500000 (constantI S_ 32 0#32)) (m ((c : Thread nD τ).loc main_arg1))))
          shapeCasts_S500000_S500000x1 := by
  dsimp only [V, V0]
  simp only [hostOps0, hostOps0_1, hostOps0_2, List.flatten_cons, List.flatten_nil, List.append_nil, List.cons_append,
    List.nil_append]
  after_results
  rfl

/-- Row `i` of that column is the clamp of label `i`. -/
theorem labcol_apply (c : Dev nD) (i : Fin 500000) :
    (V m c main_v1 : S500000x1.Idx → BitVec 32) (ix2 i (0 : Fin 1))
      = IntOp.minsi 99#32 (IntOp.maxsi 0#32 (m ((c : Thread nD τ).loc main_arg1) (ix1 i))) := by
  rw [labcol_eq]
  refine (shapeCast_apply _ shapeCasts_S500000_S500000x1 (ix2 i (0 : Fin 1)) (ix1 i) (by
    rw [Shape.rowMajor_val_one, Shape.rowMajor_val_two]; show i.val = i.val * 1 + 0; omega)).trans ?_
  show IntOp.minsi (broadcastInDim S500000 ![] bcast_S_S500000 (constantI S_ 32 99#32) (ix1 i))
      (IntOp.maxsi (broadcastInDim S500000 ![] bcast_S_S500000 (constantI S_ 32 0#32) (ix1 i)) _) = _
  rw [StableHlo.Predicate.bcast_scalar bcast_S_S500000 h_S_, StableHlo.Predicate.bcast_scalar bcast_S_S500000 h_S_]
  rfl

/-- Tile `t`'s block of scores, read at row `a`, class `b`: row `20000·t + a` of the scores as launched. -/
theorem scoreblk_apply (c : Dev nD) (t : Fin cfg0.N) (a : Fin 20000) (b : Fin 100) :
    iblk m c 0 t (ix2 a b) = m ((c : Thread nD τ).loc main_arg0) (ix2 ⟨20000 * t.val + a.val, by have := lt25 t; omega⟩ b) := by
  obtain ⟨e0, e1, -, -, -, -⟩ := idx_facts t
  show V m c main_arg0 (((cfg0.win 0).blk t).view.emb (ix2 a b)) = _
  rw [V_main_arg0]
  refine congrArg _ (funext fun d => Fin.ext ?_)
  match d with
  | ⟨0, _⟩ => show win0_0.index t (0 : Fin 2) * 20000 + 1 * a.val = 20000 * t.val + a.val; rw [e0]; omega
  | ⟨1, _⟩ => show win0_0.index t (1 : Fin 2) * 100 + 1 * b.val = b.val; rw [e1]; omega

/-- Tile `t`'s block of the label column, read at row `a`: the clamp of label `20000·t + a`. -/
theorem labelblk_apply (c : Dev nD) (t : Fin cfg0.N) (a : Fin 20000) :
    iblk m c 1 t (ix2 a (0 : Fin 1))
      = IntOp.minsi 99#32 (IntOp.maxsi 0#32 (m ((c : Thread nD τ).loc main_arg1) (ix1 ⟨20000 * t.val + a.val, by have := lt25 t; omega⟩))) := by
  obtain ⟨-, -, e0, e1, -, -⟩ := idx_facts t
  rw [← labcol_apply]
  show V m c main_v1 (((cfg0.win 1).blk t).view.emb (ix2 a (0 : Fin 1))) = _
  refine congrArg _ (funext fun d => Fin.ext ?_)
  match d with
  | ⟨0, _⟩ => show win0_1.index t (0 : Fin 2) * 20000 + 1 * a.val = 20000 * t.val + a.val; rw [e0]; omega
  | ⟨1, _⟩ => show win0_1.index t (1 : Fin 2) * 1 + 1 * 0 = 0; rw [e1]

/-- Tile `t`'s sum of the kernel's terms over its 20000 rows and 100 classes. -/
def tileSum (c : Dev nD) (t : Fin cfg0.N) : EReal :=
  ∑ a : Fin 20000, ∑ b : Fin 100, tileTerm (iblk m c 0 t) (iblk m c 1 t) a b

/-- WHAT THE OUTPUT ARRAY ENDS HOLDING: tile `t`'s sum at entry `(8·t, 0)`, zero elsewhere. -/
def partials (c : Dev nD) : S200x128.Idx → EReal := fun i =>
  if (i 0).val % 8 = 0 ∧ (i 1).val = 0 then
    tileSum m c ⟨(i 0).val / 8, lt_of_lt_of_eq (by have := idx2_lt0 i; omega) N_0.symm⟩
  else 0

/-- WHAT POINT `t` WRITES BACK is block `t` of `partials`. -/
theorem flushed_eq (c : Dev nD) (t : Fin cfg0.N) :
    (dats m 0 c).flushed 2 t = ((cfg0.win 2).blk t).view.read (Elt Ideal) (partials m c) := by
  show (cfg0.win 2).cut (grid0.coords t) ((dats m 0 c).after 2 t) = _
  rw [after0_2]
  unfold out0_2
  rw [View.canon_unit_zero hz]
  simp only [View.ld_unit_zero (S := S20000x100) hz, View.ld_unit_zero (S := S20000x1) hz]
  obtain ⟨-, -, -, -, e0, e1⟩ := idx_facts t
  funext j
  show k0_pay1 (iblk m c 0 t) (iblk m c 1 t) j = partials m c (((cfg0.win 2).blk t).view.emb j)
  have hj0 : (j 0).val < 8 := (j 0).isLt
  have hE0 : ((((cfg0.win 2).blk t).view.emb j) 0).val = t.val * 8 + (j 0).val := by
    show win0_2.index t (0 : Fin 2) * 8 + 1 * (j 0).val = _; rw [e0]; omega
  have hE1 : ((((cfg0.win 2).blk t).view.emb j) 1).val = (j 1).val := by
    show win0_2.index t (1 : Fin 2) * 128 + 1 * (j 1).val = _; rw [e1]; omega
  have hp := pay_apply (iblk m c 0 t) (iblk m c 1 t) (j 0) (j 1)
  have hjj : (j : S8x128.Idx) = ix2 (j 0) (j 1) := eq_ix2 (n0 := 8) (n1 := 128) j
  refine (congrArg (k0_pay1 (F := Ideal) (iblk m c 0 t) (iblk m c 1 t)) hjj).trans (hp.trans ?_)
  unfold partials
  by_cases h : (j 0).val = 0 ∧ (j 1).val = 0
  · rw [if_pos h, if_pos (by rw [hE0, hE1]; omega)]
    refine congrArg (tileSum m c) (Fin.ext ?_)
    show t.val = ((((cfg0.win 2).blk t).view.emb j) 0).val / 8
    rw [hE0]; omega
  · rw [if_neg h, if_neg (by rw [hE0, hE1]; omega)]
    exact Ideal.ofBits_zero_f32

/-- An index of the array is in point `t`'s block iff each coordinate is in the block's range on its axis. -/
theorem mem_blk (t : Fin cfg0.N) (i : S200x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v2).slice (win0_2.rect t)).set ↔ _
  rw [View.set_slice_whole, Rect.mem_set_unit]
  exact Iff.rfl

/-- The 25 blocks of 8 rows tile the 200 rows: row `r` is in block `r / 8`. -/
theorem cover (i : S200x128.Idx) : ∃ t : Fin cfg0.N, (cfg0.win 2).flush t = true ∧ i ∈ ((cfg0.win 2).blk t).view.set := by
  have hi0 := idx2_lt0 i
  have hi1 := idx2_lt1 i
  have ht : (i 0).val / 8 < cfg0.N := lt_of_lt_of_eq (by omega) N_0.symm
  obtain ⟨-, -, -, -, e0, e1⟩ := idx_facts ⟨(i 0).val / 8, ht⟩
  refine ⟨⟨(i 0).val / 8, ht⟩, flush0_2 _, (mem_blk _ i).2 fun a => ?_⟩
  match a with
  | ⟨0, _⟩ =>
    show win0_2.index ⟨(i 0).val / 8, ht⟩ (0 : Fin 2) * 8 ≤ (i 0).val ∧ (i 0).val < win0_2.index ⟨(i 0).val / 8, ht⟩ (0 : Fin 2) * 8 + 8
    rw [e0]; show (i 0).val / 8 * 8 ≤ (i 0).val ∧ (i 0).val < (i 0).val / 8 * 8 + 8; omega
  | ⟨1, _⟩ =>
    show win0_2.index ⟨(i 0).val / 8, ht⟩ (1 : Fin 2) * 128 ≤ (i 1).val ∧ (i 1).val < win0_2.index ⟨(i 0).val / 8, ht⟩ (1 : Fin 2) * 128 + 128
    rw [e1]; omega

/-- THE OUTPUT ARRAY after the region is `partials`. -/
theorem final (c : Dev nD) : (dats m 0 c).arrAt 2 cfg0.N = partials m c :=
  (dats m 0 c).arrAt_eq_of_cover 2 (partials m c) (fun t _ => flushed_eq m c t) (cover)

/-- THE RESULT BUFFER after the host lines that follow the region: the output array summed from the zero word and divided
    by the word of `500000.0`. -/
theorem tail_eq (c : Dev nD) :
    (Pipeline.afterTail₀ cfgs (dats m) 0 (V0 m) [hostOps1] c main_v4 : S_.Idx → EReal)
      = Host.divf (F := Ideal) (Host.reduceAdd (F := Ideal) (partials m c) (constant (F := Ideal) S_ .f32 0x00000000#32) reducesTo_S200x128_S_d0_1 h_S_)
          (constant (F := Ideal) S_ .f32 0x48F42400#32) := by
  have harr : Pipeline.withArrays (cfgs 0).spec c (V0 m c) (fun w => (dats m 0 c).arrAt w (cfgs 0).N) (Proc.tc.devRef main_v2)
      = partials m c :=
    (Pipeline.withArrays_arr spec0 launch0.win.arr_inj c (V0 m c) (fun w => (dats m 0 c).arrAt w cfg0.N) 2).trans (final m c)
  unfold Pipeline.afterTail₀
  show StableHlo.after hostOps1 _ (Proc.devRef .tc main_v4) = _
  after_results
  rw [harr]

/-- The score rows and the labels' class numbers of core `c`'s arguments. -/
abbrev rowsK (c : Dev nD) : Fin 500000 → Fin 100 → EReal := fun i b => m ((c : Thread nD τ).loc main_arg0) (ix2 i b)
abbrev labsK (c : Dev nD) (hl : ∀ i : Fin 500000, BitVec.toNat (m ((c : Thread nD τ).loc main_arg1) (ix1 i)) < 100) :
    Fin 500000 → Fin 100 := fun i => ⟨BitVec.toNat (m ((c : Thread nD τ).loc main_arg1) (ix1 i)), hl i⟩

/-- Tile `t`'s sum is the hinge terms of its 20000 rows: the clamp leaves a class number alone, so the tile's label
    column holds the labels themselves. -/
theorem tileSum_eq (c : Dev nD) (hl : ∀ i : Fin 500000, BitVec.toNat (m ((c : Thread nD τ).loc main_arg1) (ix1 i)) < 100)
    (t : Fin cfg0.N) :
    tileSum m c t = ∑ a : Fin 20000, ∑ b : Fin 100,
      rowTerm (rowsK m c ⟨20000 * t.val + a.val, by have := lt25 t; omega⟩) (labsK m c hl ⟨20000 * t.val + a.val, by have := lt25 t; omega⟩) b := by
  unfold tileSum
  refine Finset.sum_congr rfl fun a _ => Finset.sum_congr rfl fun b _ => ?_
  have hlab : (iblk m c 1 t (ix2 a (0 : Fin 1)) : BitVec 32)
      = m ((c : Thread nD τ).loc main_arg1) (ix1 ⟨20000 * t.val + a.val, by have := lt25 t; omega⟩) := by
    rw [labelblk_apply, clamp_label _ (hl _)]
  have hw : BitVec.toNat (iblk m c 1 t (ix2 a (0 : Fin 1))) < 100 := by rw [hlab]; exact hl _
  rw [tileTerm_eq _ _ a b hw]
  congr 1
  · funext b'; exact scoreblk_apply m c t a b'
  · exact Fin.ext (congrArg BitVec.toNat hlab)

/-- The output array summed whole is the sum over all 500000 rows of their hinge terms. -/
theorem partials_sum (c : Dev nD) (hl : ∀ i : Fin 500000, BitVec.toNat (m ((c : Thread nD τ).loc main_arg1) (ix1 i)) < 100) :
    ∑ i : S200x128.Idx, partials m c i = ∑ i : Fin 500000, ∑ b : Fin 100, rowTerm (rowsK m c i) (labsK m c hl i) b := by
  refine (sum_idx2 (partials m c)).trans ?_
  refine (sum_partials fun t : Fin 25 => tileSum m c ⟨t.val, lt_of_lt_of_eq t.isLt N_0.symm⟩).trans ?_
  refine Eq.trans ?_ (sum_tiles fun i => ∑ b : Fin 100, rowTerm (rowsK m c i) (labsK m c hl i) b).symm
  exact Finset.sum_congr rfl fun t _ => tileSum_eq m c hl ⟨t.val, lt_of_lt_of_eq t.isLt N_0.symm⟩

/-- THE KERNEL'S RESULT is the mean hinge loss of the score rows and the labels' class numbers. -/
theorem result (c : Dev nD) (hl : ∀ i : Fin 500000, BitVec.toNat (m ((c : Thread nD τ).loc main_arg1) (ix1 i)) < 100) :
    (Pipeline.afterTail₀ cfgs (dats m) 0 (V0 m) [hostOps1] c main_v4 : S_.Idx → EReal)
      = fun _ => loss (rowsK m c) (labsK m c hl) := by
  rw [tail_eq]
  funext k
  have hsum : Host.reduceAdd (F := Ideal) (partials m c) (constant (F := Ideal) S_ .f32 0x00000000#32) reducesTo_S200x128_S_d0_1 h_S_ k
      = Ideal.ofBits .f32 0x00000000#32 + ∑ i : S200x128.Idx, partials m c i := by
    simp only [Host.reduceAdd, Ideal.hostReduceAdd_def]
    exact Ideal.hostReduceAdd_total reducesTo_S200x128_S_d0_1 (fun b => b.elim0) (partials m c) _ k
  show Ideal.div (Host.reduceAdd (F := Ideal) (partials m c) (constant (F := Ideal) S_ .f32 0x00000000#32) reducesTo_S200x128_S_d0_1 h_S_ k)
      (Ideal.ofBits .f32 0x48F42400#32) = _
  rw [hsum, partials_sum m c hl]
  rfl

/-- THE KERNEL'S RUN: every weakly fair execution terminates with the result at the mean hinge loss and the arguments
    unchanged. -/
theorem run (hl : ∀ (c : Dev nD) (i : Fin 500000), BitVec.toNat (m ((c : Thread nD τ).loc main_arg1) (ix1 i)) < 100) :
    θ_run defs (onTc (τ := τ) (main (F := Ideal))) ⟨m, fun _ => 0, ρ⟩ fun r => ∀ c : Dev nD,
      r.2.mem ((c.tc : Thread nD τ).loc main_v4) = (fun _ => loss (rowsK m c) (labsK m c (hl c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (result m c (hl c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Hinge.Kernel

end
-- ==== Proof.lean ====
/-
  `Cert.Claim`: the Pallas hinge-loss kernel against its jnp reference, over the extended reals.

  Both programs compute, from scores `o : [500000, 100]` and labels `y : [500000]`,
  `(Σ_i Σ_{j ≠ y_i} max 0 (1 - (o[i, y_i] - o[i, j]))) / 500000`. The kernel clamps the labels into `[0, 99]`, reaches
  `o[i, y_i]` as a masked row sum, drops the label's own class by a select, sums 25 tiles of 20000 rows into one entry
  each of a [200, 128] array and lets the host sum that array; the reference gathers `o[i, y_i]` with
  `take_along_axis` (which wraps a negative index and range-tests it), multiplies each margin by `1 - one_hot` and sums
  everything at once. The two agree exactly where every label is a class number `0 ≤ y_i < 100`, which is the
  precondition's second conjunct (its first, finiteness of the scores, is not needed by any step here: the laws used are
  commutativity and associativity of `+`, `x * 0 = 0` and `x * 1 = x`, which hold for every extended real).

  The three frames are the generated ones (the reference's is its run with the result dropped); the ideal pass rewrote
  nothing, so `preserves` is `True`; `algebraic` puts the kernel's run (Proof/KernelArray.lean) beside the reference's run
  read as the same loss (Proof/RefSide.lean).
-/
import proofs.«422178_j67345087201366_2_alg».proof.Defs
import proofs.«422178_j67345087201366_2_alg».proof.Proof.Gen.Kernel
import proofs.«422178_j67345087201366_2_alg».proof.Proof.Gen.Kernel.Skeleton
import proofs.«422178_j67345087201366_2_alg».proof.Proof.Gen.Kernel.Launch
import proofs.«422178_j67345087201366_2_alg».proof.Proof.Gen.Kernel.Points
import proofs.«422178_j67345087201366_2_alg».proof.Proof.Gen.Kernel.Frame
import proofs.«422178_j67345087201366_2_alg».proof.Proof.Gen.KernelIdeal
import proofs.«422178_j67345087201366_2_alg».proof.Proof.Gen.KernelIdeal.Skeleton
import proofs.«422178_j67345087201366_2_alg».proof.Proof.Gen.KernelIdeal.Launch
import proofs.«422178_j67345087201366_2_alg».proof.Proof.Gen.KernelIdeal.Points
import proofs.«422178_j67345087201366_2_alg».proof.Proof.Gen.KernelIdeal.Frame
import proofs.«422178_j67345087201366_2_alg».proof.Proof.Gen.ReferenceIdeal
import proofs.«422178_j67345087201366_2_alg».proof.Proof.Gen.Pre_finite_inputs
import proofs.«422178_j67345087201366_2_alg».proof.Proof.RefRun
import proofs.«422178_j67345087201366_2_alg».proof.Proof.RefRead
import proofs.«422178_j67345087201366_2_alg».proof.Proof.RefSide
import proofs.«422178_j67345087201366_2_alg».proof.Proof.KernelArray
import Idealize.ShloMosaic.Adequacy
import Idealize.ShloMosaic.Init

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories that agree on the scores and the labels, both programs end at the mean hinge loss of the score rows and
    the labels' class numbers. -/
theorem algebraic : Cert.algebraic_KernelIdeal_ReferenceIdeal := by
  intro m ρ m' ρ' hpre hagree
  have hl : ∀ (c : Dev Cert.KernelIdeal.nD) (i : Fin 500000),
      BitVec.toNat (m ((c : Thread Cert.KernelIdeal.nD Cert.KernelIdeal.τ).loc Cert.KernelIdeal.main_arg1) (ix1 i)) < 100 :=
    fun c i => Cert.Hinge.labels_lt _ _ (hpre c) i
  refine ⟨fun c => fun _ => Cert.Hinge.loss (Cert.Hinge.Kernel.rowsK m c) (Cert.Hinge.Kernel.labsK m c (hl c)),
    Cert.Hinge.Kernel.run m ρ hl, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v13_eq, (hagree c).1, (hagree c).2]
  exact Cert.Hinge.Ref.result _ _ (hl c)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
